-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32000 : Shape := ⟨2, ![2048, 32000]⟩
abbrev S2048 : Shape := ⟨1, ![2048]⟩
abbrev S_ : Shape := ⟨0, ![]⟩

class Facts : Prop where
  bcast_S_S2048x32000 : S_.BroadcastsInDim S2048x32000 (![] : Fin 0 → Fin S2048x32000.rank)
  reducesTo_S2048x32000_S_d0_1 : S2048x32000.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x32000 .f32) (main_arg1 : IVec S2048 32) : IVec S_ 1 :=
  let main_v0 : FVec F S2048x32000 .f32 := Host.absf main_arg0
  let main_cst : FVec F S_ .f32 := constant S_ .f32 0x7F800000#32
  let main_v1 : FVec F S2048x32000 .f32 := broadcastInDim S2048x32000 ![] bcast_S_S2048x32000 main_cst
  let main_v2 : IVec S2048x32000 1 := cmpf .olt main_v0 main_v1
  let main_c : IVec S_ 1 := constantI S_ 1 1#1
  let main_v3 : IVec S_ 1 := (fun x v => Host.reduce IntOp.andi x v reducesTo_S2048x32000_S_d0_1 h_S_) main_v2 main_c
  let main_c_0 : IVec S_ 32 := constantI S_ 32 0#32
  let main_v4 : IVec S2048 32 := broadcastInDim S2048 ![] bcast_S_S2048 main_c_0
  let main_v5 : IVec S2048 1 := cmpi .sge main_arg1 main_v4
  let main_c_1 : IVec S_ 1 := constantI S_ 1 1#1
  let main_v6 : IVec S_ 1 := (fun x v => Host.reduce IntOp.andi x v reducesTo_S2048_S_d0 h_S_) main_v5 main_c_1
  let main_v7 : IVec S_ 1 := andi main_v3 main_v6
  let main_c_2 : IVec S_ 32 := constantI S_ 32 32000#32
  let main_v8 : IVec S2048 32 := broadcastInDim S2048 ![] bcast_S_S2048 main_c_2
  let main_v9 : IVec S2048 1 := cmpi .slt main_arg1 main_v8
  let main_c_3 : IVec S_ 1 := constantI S_ 1 1#1
  let main_v10 : IVec S_ 1 := (fun x v => Host.reduce IntOp.andi x v reducesTo_S2048_S_d0 h_S_) main_v9 main_c_3
  let main_v11 : IVec S_ 1 := andi main_v7 main_v10
  main_v11
-- ==== Kernel.lean ====
abbrev S2048x32000 : Shape := ⟨2, ![2048, 32000]⟩
abbrev S2048 : Shape := ⟨1, ![2048]⟩
abbrev S2048x1 : Shape := ⟨2, ![2048, 1]⟩
abbrev S64x32000 : Shape := ⟨2, ![64, 32000]⟩
abbrev S64x1 : Shape := ⟨2, ![64, 1]⟩
abbrev S64 : Shape := ⟨1, ![64]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S2048x32000, .f32⟩
  | .hbm, ⟨1, _⟩ => ⟨S2048, .i32⟩
  | .hbm, ⟨2, _⟩ => ⟨S2048x1, .i32⟩
  | .hbm, ⟨3, _⟩ => ⟨S2048x1, .f32⟩
  | .hbm, ⟨4, _⟩ => ⟨S2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S64x32000, .f32⟩
  | .local _ .vmem, ⟨1, _⟩ => ⟨S64x32000, .f32⟩
  | .local _ .vmem, ⟨2, _⟩ => ⟨S64x1, .i32⟩
  | .local _ .vmem, ⟨3, _⟩ => ⟨S64x1, .i32⟩
  | .local _ .vmem, ⟨4, _⟩ => ⟨S64x1, .f32⟩
  | .local _ .vmem, ⟨5, _⟩ => ⟨S64x1, .f32⟩
  | _, _ => ⟨S2048x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2048_S2048x1 : S2048.ShapeCasts S2048x1
  inb_S64x32000_S64x32000_0_0 : ∀ a, (![0, 0] : Fin 2 → Nat) a + S64x32000.size a ≤ S64x32000.size a
  h_S64x32000 : 0 < S64x32000.numel
  reduces_S64x32000_S64 : S64x32000.Reduces [1] S64
  shapeCasts_S64_S64x1 : S64.ShapeCasts S64x1
  broadcasts_S64x1_S64x32000 : S64x1.Broadcasts S64x32000
  iota_S64x32000_d1_w32 : S64x32000.Iotas .tc 32 [1]
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S2048x1_S2048 : S2048x1.ShapeCasts S2048
  reducesTo_S2048_S_d0 : S2048.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32000.size a ≤ S2048x32000.size a
  hwx0_0 : ∀ i : grid0.Coords, EltTy.bits .f32 = 32 ∨ (Rect.block (s := S2048x32000) S64x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S2048x1.size a
  hwx0_1 : ∀ i : grid0.Coords, EltTy.bits .i32 = 32 ∨ (Rect.block (s := S2048x1) S64x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S2048x1.size a
  hwx0_2 : ∀ i : grid0.Coords, EltTy.bits .f32 = 32 ∨ (Rect.block (s := S2048x1) S64x1.size (cc0_transform_2 i) (hinb0_2 i)).WholeWords (EltTy.packing .f32)

variable [Facts₀]

abbrev win0_0 : Pipeline.Window sig grid0 :=
  Pipeline.Window.ofSpec (Memref.whole main_arg0) S64x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x32000 : Shape := ⟨2, ![2048, 32000]⟩
abbrev S2048 : Shape := ⟨1, ![2048]⟩
abbrev S_ : Shape := ⟨0, ![]⟩
abbrev S2048x1 : Shape := ⟨2, ![2048, 1]⟩
abbrev S2048x2 : Shape := ⟨2, ![2048, 2]⟩

abbrev nBuf : Space → Nat
  | .hbm => 59
  | .vmem => 0
  | .smem => 0
  | _ => 0

abbrev bufTy : (tb : Table) → Fin (tcTables nBuf tb) → BufTy
  | .hbm, ⟨0, _⟩ => ⟨S2048x32000, .f32⟩
  | .hbm, ⟨1, _⟩ => ⟨S2048, .i32⟩
  | .hbm, ⟨2, _⟩ => ⟨S_, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S2048x1, .f32⟩
  | .hbm, ⟨8, _⟩ => ⟨S2048x32000, .f32⟩
  | .hbm, ⟨9, _⟩ => ⟨S2048x32000, .f32⟩
  | .hbm, ⟨10, _⟩ => ⟨S2048x32000, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x32000, .f32⟩
  | .hbm, ⟨15, _⟩ => ⟨S2048x32000, .f32⟩
  | .hbm, ⟨16, _⟩ => ⟨S_, .f32⟩
  | .hbm, ⟨17, _⟩ => ⟨S2048x32000, .f32⟩
  | .hbm, ⟨18, _⟩ => ⟨S2048x32000, .i1⟩
  | .hbm, ⟨19, _⟩ => ⟨S_, .f32⟩
  | .hbm, ⟨20, _⟩ => ⟨S_, .f32⟩
  | .hbm, ⟨21, _⟩ => ⟨S2048x32000, .f32⟩
  | .hbm, ⟨22, _⟩ => ⟨S2048x32000, .f32⟩
  | .hbm, ⟨23, _⟩ => ⟨S2048x32000, .f32⟩
  | .hbm, ⟨24, _⟩ => ⟨S2048x32000, .f32⟩
  | .hbm, ⟨25, _⟩ => ⟨S2048, .i32⟩
  | .hbm, ⟨26, _⟩ => ⟨S_, .i32⟩
  | .hbm, ⟨27, _⟩ => ⟨S2048, .i32⟩
  | .hbm, ⟨28, _⟩ => ⟨S2048, .i1⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S_, .i32⟩
  | .hbm, ⟨37, _⟩ => ⟨S2048, .i32⟩
  | .hbm, ⟨38, _⟩ => ⟨S2048, .i32⟩
  | .hbm, ⟨39, _⟩ => ⟨S2048, .i32⟩
  | .hbm, ⟨40, _⟩ => ⟨S2048x1, .i32⟩
  | .hbm, ⟨41, _⟩ => ⟨S2048x1, .i32⟩
  | .hbm, ⟨42, _⟩ => ⟨S2048x2, .i32⟩
  | .hbm, ⟨43, _⟩ => ⟨S_, .f32⟩
  | .hbm, ⟨44, _⟩ => ⟨S2048, .f32⟩
  | .hbm, ⟨45, _⟩ => ⟨S2048x32000, .f32⟩
  | .hbm, ⟨46, _⟩ => ⟨S_, .f32⟩
  | .hbm, ⟨47, _⟩ => ⟨S2048x32000, .f32⟩
  | .hbm, ⟨48, _⟩ => ⟨S2048x32000, .f32⟩
  | .hbm, ⟨49, _⟩ => ⟨S2048x32000, .f32⟩
  | .hbm, ⟨50, _⟩ => ⟨S2048x32000, .f32⟩
  | .hbm, ⟨51, _⟩ => ⟨S2048x32000, .f32⟩
  | .hbm, ⟨52, _⟩ => ⟨S2048x32000, .f32⟩
  | .hbm, ⟨53, _⟩ => ⟨S_, .f32⟩
  | .hbm, ⟨54, _⟩ => ⟨S2048, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S2048x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_cst_4 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_c_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩

abbrev nD : Nat := 1
abbrev τ : Topo := Topo.v7x

variable {F : FTy → Type} [FloatOps F]

class Facts₀ : Prop where
  reducesTo_S2048x32000_S2048_d1 : S2048x32000.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32000_0_1 : S2048x1.BroadcastsInDim S2048x32000 (![0, 1] : Fin 2 → Fin S2048x32000.rank)
  bcast_S_S2048x32000 : S_.BroadcastsInDim S2048x32000 (![] : Fin 0 → Fin S2048x32000.rank)
  concatenates_S2048x1_S2048x1_S2048x2_d1 : Shape.Concatenates [S2048x1, S2048x1] S2048x2 1
  reducesTo_S2048_S_d0 : S2048.ReducesTo [0] S_
  scatter_S2048x32000_S2048x2_S2048_n_01_01_1_wf : ScatterDims.WF S2048x32000 S2048x2 S2048 [] [0, 1] [0, 1] 1

variable [Facts₀]

def scatter_S2048x32000_S2048x2_S2048_n_01_01_1 : ScatterDims S2048x32000 S2048x2 S2048 where
  updateWindowDims := []
  insertedWindowDims := [0, 1]
  scatterDimsToOperandDims := [0, 1]
  indexVectorDim := 1
  wf := scatter_S2048x32000_S2048x2_S2048_n_01_01_1_wf

class Facts : Prop extends Facts₀ where

variable [Facts]
-- ==== Proof.Spec.lean ====
/-
  The value both programs compute, stated once over plain index types.

  For one row `x` of 32000 extended reals and its label word `l`: with `M` the row's maximum, `e c = exp (x c - M)`
  and `D = ∑ e`, column `c` is OVER-CONFIDENT when `e c > D · ½` (the softmax probability above one half, cleared of
  its division). The row's loss is `∑_c w c · (0 - log f c)`, where `f c` is `1 - x c` at an over-confident column and
  `x c` elsewhere, and the weight `w c` is `0.9` at the label's column, else `0.1` at an over-confident column, else `0`.
  The result is the mean of the 2048 rows' losses. Float literals stay as the words both programs print.
-/
import Idealize.ShloMosaic.PureOps.Ideal
import Idealize.ShloMosaic.Lib.ValueIdx

noncomputable section

open scoped BigOperators

namespace Cert.CeHs

open Idealize.ShloMosaic

/-- The row's maximum, folded from the word of `-∞`. -/
def rowMax (x : Fin 32000 → EReal) : EReal :=
  (Finset.univ : Finset (Fin 32000)).fold max (Ideal.ofBits .f32 0xFF800000#32) x

/-- `exp (x c - max x)`. -/
def expShift (x : Fin 32000 → EReal) (c : Fin 32000) : EReal := Ideal.exp (x c - rowMax x)

/-- The softmax denominator `∑_c exp (x c - max x)`. -/
def denom (x : Fin 32000 → EReal) : EReal := ∑ c : Fin 32000, expShift x c

/-- The over-confidence bit of column `c`: `exp (x c - max x) > denom · ½`. -/
def hot (x : Fin 32000 → EReal) (c : Fin 32000) : BitVec 1 :=
  Ideal.cmp .ogt (expShift x c) (denom x * Ideal.ofBits .f32 0x3F000000#32)

/-- The smoothed target: `0.9` at the label's column, else `0.1` where over-confident, else `0`. -/
def weight (x : Fin 32000 → EReal) (l : BitVec 32) (c : Fin 32000) : EReal :=
  Scalar.select (IntOp.cmpi .eq (BitVec.ofNat 32 c.val) l) (Ideal.ofBits .f32 0x3F666666#32)
    (Scalar.select (hot x c) (Ideal.ofBits .f32 0x3DCCCCCD#32) (Ideal.ofBits .f32 0x00000000#32))

/-- The flipped prediction: `1 - x c` where over-confident, `x c` elsewhere. -/
def flipped (x : Fin 32000 → EReal) (c : Fin 32000) : EReal :=
  Scalar.select (hot x c) (Ideal.ofBits .f32 0x3F800000#32 - x c) (x c)

/-- One row's loss. -/
def rowLoss (x : Fin 32000 → EReal) (l : BitVec 32) : EReal :=
  ∑ c : Fin 32000, weight x l c * (Ideal.ofBits .f32 0x00000000#32 - Ideal.log (flipped x c))

/-- The mean over the 2048 rows. -/
def meanLoss (P : Fin 2048 → Fin 32000 → EReal) (L : Fin 2048 → BitVec 32) : EReal :=
  Ideal.div (Ideal.ofBits .f32 0x00000000#32 + ∑ r : Fin 2048, rowLoss (P r) (L r)) (Ideal.ofBits .f32 0x45000000#32)

end Cert.CeHs

end
-- ==== Proof.KernelRow.lean ====
/-
  The kernel body's stored value, one row at a time: row `p` of the 64-row block's result is the spec's loss of row
  `p` of the prediction block under the label in row `p` of the label block.
-/
import proofs.«417274_j50740743635432_2_alg».proof.Proof.Gen.KernelIdeal.Skeleton
import proofs.«417274_j50740743635432_2_alg».proof.Proof.Spec
import Idealize.ShloMosaic.Lib.Pipeline.Value
import Idealize.ShloMosaic.PureOps.Ideal.Laws

noncomputable section

open scoped BigOperators

namespace Cert.CeHs

open Idealize.ShloMosaic Idealize.ShloMosaic.ValueIdx

/-! ## Column layouts read at an index -/

/-- An `[a]` vector cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the columns read at a row -/

/-- Putting column `k` back into the row index `p` gives `(p, k)`. -/
theorem lift_ix1 {a b : ℕ} (h : (⟨2, ![a, b]⟩ : Shape).Reduces [1] ⟨1, ![a]⟩) (p : Fin a) (k : Fin b) :
    h.lift (ix1 p) k = ix2 p k := by
  funext ax
  match ax with
  | ⟨0, _⟩ => rfl
  | ⟨1, _⟩ => rfl

/-- The sum along the columns, at row `p`, is the sum of the row's entries. -/
theorem rowSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_ix1 h p k))

/-- The maximum along the columns, at row `p`, is the fold of `max` over the row's entries. -/
theorem rowMax_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ v acc h hφ hacc (ix1 p)
      = (Finset.univ : Finset (Fin b)).fold max (Ideal.ofBits .f32 acc) (fun k => v (ix2 p k)) :=
  (Ideal.multiReduction_maximumf_single v acc h hφ hacc (ix1 p)).trans
    (congrArg (Finset.univ.fold max (Ideal.ofBits .f32 acc)) (funext fun k => congrArg v (lift_ix1 h p k)))

/-! ## The kernel's intermediate vectors read at `(p, k)` -/

open Cert.KernelIdeal in
/-- `exp (x - max)` with the row maximum reduced, put in a column and broadcast back, read at `(p, k)`. -/
theorem expShift_apply (v : FVec Ideal S64x32000 .f32) (hr : S64x32000.Reduces [1] S64) (hφ : FKind.Formats .f32)
    (hacc : (0xFF800000#32 : BitVec 32) = FKind.maximumf.neutral .f32 hφ) (hc : S64.ShapeCasts S64x1)
    (hb : S64x1.Broadcasts S64x32000) (p : Fin 64) (k : Fin 32000) :
    Idealize.ShloMosaic.exp (subf v (broadcastTo S64x32000
        (shapeCast S64x1 (multiReduction .maximumf [1] S64 v 0xFF800000#32 hr hφ hacc) hc) hb)) (ix2 p k)
      = expShift (fun c => v (ix2 p c)) k := by
  show Ideal.exp (v (ix2 p k) - broadcastTo S64x32000 _ hb (ix2 p k)) = Ideal.exp (v (ix2 p k) - rowMax _)
  refine congrArg (fun m => Ideal.exp (v (ix2 p k) - m)) ?_
  refine (broadcastTo_a1_ab_apply _ hb p k).trans ?_
  refine (shapeCast_a_a1_apply _ hc p 0).trans ?_
  exact rowMax_apply v _ hr hφ hacc p

open Cert.KernelIdeal in
/-- The over-confidence bit, with the denominator reduced, put in a column, halved and broadcast back, read at `(p, k)`. -/
theorem hot_apply (x : Fin 32000 → EReal) (E : FVec Ideal S64x32000 .f32) (p : Fin 64)
    (hE : ∀ c : Fin 32000, E (ix2 p c) = expShift x c)
    (hr : S64x32000.Reduces [1] S64) (hφ : FKind.Formats .f32)
    (hacc : (0x00000000#32 : BitVec 32) = FKind.add.neutral .f32 hφ) (hc : S64.ShapeCasts S64x1)
    (hb : S64x1.Broadcasts S64x32000) (k : Fin 32000) :
    cmpf .ogt E (broadcastTo S64x32000
        (mulf (shapeCast S64x1 (multiReduction .add [1] S64 E 0x00000000#32 hr hφ hacc) hc)
          (broadcast S64x1 (FloatOps.ofBits (F := Ideal) .f32 0x3F000000#32))) hb) (ix2 p k)
      = hot x k := by
  show Ideal.cmp .ogt (E (ix2 p k)) (broadcastTo S64x32000 _ hb (ix2 p k))
    = Ideal.cmp .ogt (expShift x k) (denom x * Ideal.ofBits .f32 0x3F000000#32)
  rw [hE k]
  refine congrArg (Ideal.cmp .ogt (expShift x k)) ?_
  refine (broadcastTo_a1_ab_apply _ hb p k).trans ?_
  show shapeCast S64x1 _ hc (ix2 p 0) * Ideal.ofBits .f32 0x3F000000#32 = denom x * Ideal.ofBits .f32 0x3F000000#32
  refine congrArg (· * Ideal.ofBits .f32 0x3F000000#32) ?_
  refine (shapeCast_a_a1_apply _ hc p 0).trans ?_
  refine (rowSum_apply E _ hr hφ hacc p).trans ?_
  exact Finset.sum_congr rfl fun c _ => hE c

/-- The payload at row `p` (its one column `u`) is the row's loss. -/
theorem pay_row (x0 : FVec Ideal Cert.KernelIdeal.S64x32000 .f32) (x1 : IVec Cert.KernelIdeal.S64x1 32) (p : Fin 64) (u : Fin 1) :
    Cert.KernelIdeal.Gen.k0_pay1 (F := Ideal) x0 x1 (ix2 p u)
      = rowLoss (fun k => x0 (ix2 p k)) (x1 (ix2 p (0 : Fin 1))) := by
  unfold Cert.KernelIdeal.Gen.k0_pay1
  -- the stored column at `(p, u)` is the last reduction at row `p`: a sum over the columns `k`
  refine (shapeCast_a_a1_apply _ _ p u).trans ?_
  refine (rowSum_apply _ _ _ _ _ p).trans ?_
  unfold rowLoss
  refine Finset.sum_congr rfl fun k _ => ?_
  -- name the shifted exponentials `E` and the over-confidence bits `H`
  generalize hE : Idealize.ShloMosaic.exp (subf x0 _) = E
  generalize hH : cmpf CmpFPredicate.ogt E _ = H
  have hEc : ∀ c : Fin 32000, E (ix2 p c) = expShift (fun k => x0 (ix2 p k)) c := fun c => by
    rw [← hE]; exact expShift_apply x0 _ _ _ _ _ p c
  have hHk : H (ix2 p k) = hot (fun k => x0 (ix2 p k)) k := by
    rw [← hH]; exact hot_apply _ E p hEc _ _ _ _ _ k
  -- the column number and the row's label at `(p, k)`
  have hI : iota Kind.tc Cert.KernelIdeal.S64x32000 32 [1] Cert.KernelIdeal.Gen.iota_S64x32000_d1_w32 (ix2 p k)
      = BitVec.ofNat 32 k.val := iota_single_apply _ _ _ _ _ _
  have hL : broadcastTo Cert.KernelIdeal.S64x32000
        (shapeCast Cert.KernelIdeal.S64x1 x1 Cert.KernelIdeal.Gen.shapeCasts_S64x1_S64x1)
        Cert.KernelIdeal.Gen.broadcasts_S64x1_S64x32000 (ix2 p k) = x1 (ix2 p (0 : Fin 1)) :=
    (broadcastTo_a1_ab_apply _ _ p k).trans (congrFun (shapeCast_self x1 _) _)
  -- every other operation reads through at the index
  show Scalar.select (IntOp.cmpi .eq (iota Kind.tc _ 32 [1] _ (ix2 p k)) (broadcastTo _ _ _ (ix2 p k)))
        (Ideal.ofBits .f32 0x3F666666#32)
        (Scalar.select (H (ix2 p k)) (Ideal.ofBits .f32 0x3DCCCCCD#32) (Ideal.ofBits .f32 0x00000000#32))
      * (Ideal.ofBits .f32 0x00000000#32
          - Ideal.log (Scalar.select (H (ix2 p k)) (Ideal.ofBits .f32 0x3F800000#32 - x0 (ix2 p k)) (x0 (ix2 p k))))
    = _
  rw [hI, hL, hHk]
  rfl

end Cert.CeHs

end
-- ==== Proof.KernelArray.lean ====
/-
  The kernel's region, read as values: after the 32 grid points the result column holds, at row `r`, the loss of row
  `r` of the predictions under label `r`.

  Point `t` loads rows `64 t … 64 t + 63` of the predictions and of the label column (the labels reshaped to a column by
  the host line before the region) and writes back rows `64 t … 64 t + 63` of the result column; the body's stored value
  at a row is that row's loss. The 32 blocks tile the column, so the column after the run is the losses.
-/
import proofs.«417274_j50740743635432_2_alg».proof.Proof.Gen.KernelIdeal.Frame
import proofs.«417274_j50740743635432_2_alg».proof.Proof.KernelRow
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Idealize.ShloMosaic.StableHlo Cert.CeHs

variable (m : (ℓ : Loc nD τ sig) → Buf (Elt Ideal) ℓ) (ρ : Dev nD → PrngReg)

theorem hz : (![0, 0] : Fin 2 → Nat) = fun _ => 0 := funext fun a => by fin_cases a <;> rfl

/-- Row `r` of the predictions as launched. -/
abbrev predRow (c : Dev nD) (r : Fin 2048) : Fin 32000 → EReal :=
  fun k => (m ((c : Thread nD τ).loc main_arg0) : S2048x32000.Idx → EReal) (ix2 r k)
/-- Label `r` as launched. -/
abbrev labelOf (c : Dev nD) (r : Fin 2048) : BitVec 32 :=
  (m ((c : Thread nD τ).loc main_arg1) : S2048.Idx → BitVec 32) (ix1 r)

/-- The row a column index names. -/
abbrev rowOf (i : S2048x1.Idx) : Fin 2048 := ⟨(i 0).val, idx2_lt0 i⟩

/-- The losses as a column. -/
abbrev lossCol (c : Dev nD) : S2048x1.Idx → EReal :=
  fun i => rowLoss (predRow m c (rowOf i)) (labelOf m c (rowOf i))

/-- The label column the region finds is the labels, reshaped. -/
theorem V_label (c : Dev nD) :
    (V m c main_v0 : S2048x1.Idx → BitVec 32)
      = fun i => shapeCast S2048x1 (m ((c : Thread nD τ).loc main_arg1) : S2048.Idx → BitVec 32) shapeCasts_S2048_S2048x1 i := by
  show StableHlo.after hostOps0 (fun b => m (c, b)) (Proc.devRef .tc main_v0) = _
  after_results
  rfl

/-- At `(r, 0)` the label column reads label `r`. -/
theorem V_label_apply (c : Dev nD) (i : S2048x1.Idx) :
    (V m c main_v0 : S2048x1.Idx → BitVec 32) i = labelOf m c (rowOf i) := by
  rw [V_label]
  refine shapeCast_apply _ _ i (ix1 (rowOf i)) ?_
  rw [Shape.rowMajor_val_two, Shape.rowMajor_val_one]
  have h1 : (i 1).val < 1 := idx2_lt1 i
  show (i 0).val = (i 0).val * 1 + (i 1).val
  omega

/-- The printed index maps over the grid: every window's block index at point `t` is `(t, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The two input blocks at point `t`, typed as the body's operands. -/
abbrev xblk (c : Dev nD) (t : Fin cfg0.N) : FVec Ideal S64x32000 .f32 := iblk m c 0 t
abbrev lblk (c : Dev nD) (t : Fin cfg0.N) : IVec S64x1 32 := iblk m c 1 t

/-- Row `p` of the prediction block at point `t` is row `64 t + p` of the predictions. -/
theorem xblk_apply (c : Dev nD) (t : Fin cfg0.N) (p : Fin 64) (k : Fin 32000) (r : Fin 2048) (hr : r.val = 64 * t.val + p.val) :
    xblk m c t (ix2 p k) = predRow m c r k := by
  obtain ⟨e0, e1, -⟩ := idx_facts t
  unfold xblk iblk
  rw [View.read_apply]
  refine (congrFun (V_main_arg0 m c) _).trans ?_
  show (m ((c : Thread nD τ).loc main_arg0) : S2048x32000.Idx → EReal) _ = (m ((c : Thread nD τ).loc main_arg0) : S2048x32000.Idx → EReal) (ix2 r k)
  congr 1
  funext a
  apply Fin.ext
  match a with
  | ⟨0, _⟩ => show win0_0.index t (0 : Fin 2) * 64 + 1 * p.val = r.val; omega
  | ⟨1, _⟩ => show win0_0.index t (1 : Fin 2) * 32000 + 1 * k.val = k.val; omega

/-- Row `p` of the label block at point `t` is label `64 t + p`. -/
theorem lblk_apply (c : Dev nD) (t : Fin cfg0.N) (p : Fin 64) (u : Fin 1) (r : Fin 2048) (hr : r.val = 64 * t.val + p.val) :
    lblk m c t (ix2 p u) = labelOf m c r := by
  obtain ⟨-, -, e0, e1, -⟩ := idx_facts t
  unfold lblk iblk
  rw [View.read_apply]
  refine (V_label_apply m c _).trans ?_
  congr 1
  apply Fin.ext
  show win0_1.index t (0 : Fin 2) * 64 + 1 * p.val = r.val
  omega

set_option maxRecDepth 200000 in
/-- WHAT POINT `t` WRITES BACK is block `t` of the losses. -/
theorem flushed_eq (c : Dev nD) (t : Fin cfg0.N) :
    (dats m 0 c).flushed 2 t = ((cfg0.win 2).blk t).view.read (Elt Ideal) (lossCol m c) := by
  show (cfg0.win 2).cut (grid0.coords t) ((dats m 0 c).after 2 t) = _
  rw [after0_2]
  unfold out0_2
  rw [View.canon_unit_zero hz]
  simp only [View.ld_unit_zero (S := S64x32000) hz, View.ld_unit_zero (S := S64x1) hz]
  obtain ⟨-, -, -, -, e0, e1⟩ := idx_facts t
  funext j
  have hj0 : (j 0).val < 64 := (j 0).isLt
  have hj1 : (j 1).val < 1 := (j 1).isLt
  have hjeq : j = ix2 (⟨(j 0).val, hj0⟩ : Fin 64) (⟨(j 1).val, hj1⟩ : Fin 1) := by
    funext a; match a with | ⟨0, _⟩ => rfl | ⟨1, _⟩ => rfl
  show k0_pay1 (F := Ideal) (xblk m c t) (lblk m c t) j = lossCol m c (((cfg0.win 2).blk t).view.emb j)
  refine (congrArg (k0_pay1 (F := Ideal) (xblk m c t) (lblk m c t)) hjeq).trans ?_
  refine (pay_row (xblk m c t) (lblk m c t) ⟨(j 0).val, hj0⟩ ⟨(j 1).val, hj1⟩).trans ?_
  have hrow : (rowOf (((cfg0.win 2).blk t).view.emb j)).val = 64 * t.val + (j 0).val := by
    show win0_2.index t (0 : Fin 2) * 64 + 1 * (j 0).val = _
    omega
  show rowLoss _ _ = rowLoss (predRow m c (rowOf (((cfg0.win 2).blk t).view.emb j))) (labelOf m c (rowOf (((cfg0.win 2).blk t).view.emb j)))
  congr 1
  · funext k
    exact xblk_apply m c t ⟨(j 0).val, hj0⟩ k _ hrow
  · exact lblk_apply m c t ⟨(j 0).val, hj0⟩ (0 : Fin 1) _ hrow

/-- An index of the column is in point `t`'s block iff each coordinate is in the block's range on its axis. -/
theorem mem_blk (t : Fin cfg0.N) (i : S2048x1.Idx) :
    i ∈ ((cfg0.win 2).blk t).view.set ↔ ∀ a : Fin 2, win0_2.index t a * S64x1.size a ≤ (i a).val ∧ (i a).val < win0_2.index t a * S64x1.size a + S64x1.size a := by
  show i ∈ ((View.whole main_v1).slice (win0_2.rect t)).set ↔ _
  rw [View.set_slice_whole, Rect.mem_set_unit]
  exact Iff.rfl

/-- THE COLUMN after the run is the losses: row `r` lies in the block of point `r / 64`. -/
theorem final_col (c : Dev nD) : (dats m 0 c).arrAt 2 cfg0.N = lossCol m c :=
  (dats m 0 c).arrAt_eq_of_cover 2 (lossCol m c) (fun t _ => flushed_eq m c t) fun i => by
    have hi0 : (i 0).val < 2048 := idx2_lt0 i
    have hi1 : (i 1).val < 1 := idx2_lt1 i
    have hN : cfg0.N = 32 := N_0
    let t : Fin cfg0.N := ⟨(i 0).val / 64, by rw [hN]; omega⟩
    obtain ⟨-, -, -, -, e0, e1⟩ := idx_facts t
    refine ⟨t, flush0_2 t, ?_⟩
    rw [mem_blk]
    intro a
    match a with
    | ⟨0, _⟩ => show win0_2.index t (0 : Fin 2) * 64 ≤ (i 0).val ∧ (i 0).val < win0_2.index t (0 : Fin 2) * 64 + 64
                have ht : t.val = (i 0).val / 64 := rfl
                omega
    | ⟨1, _⟩ => show win0_2.index t (1 : Fin 2) * 1 ≤ (i 1).val ∧ (i 1).val < win0_2.index t (1 : Fin 2) * 1 + 1; omega

end Cert.KernelIdeal.Hand

end
-- ==== Proof.IdxSum.lean ====
/-
  A sum over the one-axis index set `[n]` is the sum over its coordinate.
-/
import Idealize.ShloMosaic.Lib.ValueIdx

noncomputable section

open scoped BigOperators

namespace Cert.CeHs

open Idealize.ShloMosaic Idealize.ShloMosaic.ValueIdx

/-- A rank-1 index set is its coordinate's range … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

end Cert.CeHs

end
-- ==== Proof.KernelRun.lean ====
/-
  The kernel's program, read as a value: after the region the host lines reshape the column of losses to a vector, sum
  it from zero and divide by 2048 — the mean loss.
-/
import proofs.«417274_j50740743635432_2_alg».proof.Proof.KernelArray
import proofs.«417274_j50740743635432_2_alg».proof.Proof.IdxSum
import Idealize.ShloMosaic.PureOps.Ideal.Laws

noncomputable section

open scoped BigOperators

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Idealize.ShloMosaic.StableHlo Cert.CeHs

variable (m : (ℓ : Loc nD τ sig) → Buf (Elt Ideal) ℓ) (ρ : Dev nD → PrngReg)

/-- A `[2048, 1]` column reshaped to a vector reads, at `r`, the column at `(r, 0)`. -/
theorem col_as_vec (col : S2048x1.Idx → EReal) (r : Fin 2048) :
    shapeCast S2048 col shapeCasts_S2048x1_S2048 (ix1 r) = col (ix2 r (0 : Fin 1)) :=
  shapeCast_apply col shapeCasts_S2048x1_S2048 (ix1 r) (ix2 r (0 : Fin 1)) (by
    rw [Shape.rowMajor_val_two, Shape.rowMajor_val_one]
    show r.val * 1 + 0 = r.val
    omega)

/-- The host lines after the region, as one function of the column: zero plus the sum of the rows, over 2048. -/
theorem tail_pure (col : S2048x1.Idx → EReal) :
    (Host.divf (F := Ideal) (Host.reduceAdd (F := Ideal) (fun i => shapeCast S2048 col shapeCasts_S2048x1_S2048 i)
        (constant (F := Ideal) S_ .f32 0x00000000#32) reducesTo_S2048_S_d0 h_S_) (constant (F := Ideal) S_ .f32 0x45000000#32) : S_.Idx → EReal)
      = fun _ => Ideal.div (Ideal.ofBits .f32 0x00000000#32 + ∑ r : Fin 2048, col (ix2 r (0 : Fin 1))) (Ideal.ofBits .f32 0x45000000#32) := by
  funext i
  show Ideal.div ((Host.reduceAdd (F := Ideal) (fun i => shapeCast S2048 col shapeCasts_S2048x1_S2048 i)
        (constant (F := Ideal) S_ .f32 0x00000000#32) reducesTo_S2048_S_d0 h_S_ : S_.Idx → EReal) i) (Ideal.ofBits .f32 0x45000000#32) = _
  congr 1
  simp only [Host.reduceAdd, Ideal.hostReduceAdd_def]
  rw [Ideal.hostReduceAdd_total reducesTo_S2048_S_d0 (fun b => b.elim0) _ _ i, sum_idx1]
  exact congrArg (Ideal.ofBits .f32 0x00000000#32 + ·) (Finset.sum_congr rfl fun r _ => col_as_vec col r)

/-- What the program's result buffer holds after the run. -/
theorem tail_eq (c : Dev nD) :
    Pipeline.afterTail₀ cfgs (dats m) 0 (V0 m) [hostOps1] c main_v4 = fun _ => meanLoss (predRow m c) (labelOf m c) := by
  unfold Pipeline.afterTail₀
  show StableHlo.after hostOps1 _ (Proc.devRef .tc main_v4) = _
  after_results
  have hcol : Pipeline.withArrays (cfgs 0).spec c (V0 m c) (fun w => (dats m 0 c).arrAt w (cfgs 0).N) (Proc.devRef .tc main_v1) = lossCol m c :=
    (Pipeline.withArrays_arr spec0 launch0.win.arr_inj c _ _ 2).trans (final_col m c)
  show (Host.divf (F := Ideal) (Host.reduceAdd (F := Ideal) (fun i => shapeCast S2048
      (Pipeline.withArrays (cfgs 0).spec c (V0 m c) (fun w => (dats m 0 c).arrAt w (cfgs 0).N) (Proc.devRef .tc main_v1)) shapeCasts_S2048x1_S2048 i)
        (constant (F := Ideal) S_ .f32 0x00000000#32) reducesTo_S2048_S_d0 h_S_) (constant (F := Ideal) S_ .f32 0x45000000#32) : S_.Idx → EReal) = _
  rw [hcol]
  exact tail_pure (lossCol m c)

/-- THE RUN, READ: every weakly fair execution terminates with the result at the mean loss of the launched predictions
    and labels, the arguments unchanged. -/
theorem run : θ_run defs (onTc (τ := τ) (main (F := Ideal))) ⟨m, fun _ => 0, ρ⟩ fun r => ∀ c : Dev nD,
      r.2.mem ((c.tc : Thread nD τ).loc main_v4) = (fun _ => meanLoss (predRow m c) (labelOf m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (tail_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.Hand

end
-- ==== Proof.MaskLaw.lean ====
/-
  The over-confidence test cleared of its division.

  For a row of REAL numbers the shifted exponentials are positive reals and so is their sum `D`, hence
  `e / D > ½ ↔ e > D · ½`: the reference's comparison of the softmax probability with one half is the kernel's
  comparison of the numerator with half the denominator.
-/
import proofs.«417274_j50740743635432_2_alg».proof.Proof.Spec

noncomputable section

open scoped BigOperators

namespace Cert.CeHs

open Idealize.ShloMosaic

/-- The word `0x3F000000` is one half. -/
theorem half_eq : Ideal.ofBits .f32 0x3F000000#32 = ((1 / 2 : ℝ) : EReal) := by
  simp [Ideal.ofBits, Ideal.ieee, -EReal.coe_mul]
  norm_num

/-- The word `0xFF800000` is `-∞`. -/
private theorem ninf_eq : Ideal.ofBits .f32 0xFF800000#32 = (⊥ : EReal) := by
  simp [Ideal.ofBits, Ideal.ieee]

/-- The coercion `ℝ → EReal` commutes with finite sums. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a row of reals is a real: it is below `⊤` because `-∞` and every entry are, and it is
    above `⊥` because it is at least the entry of column `0`. -/
theorem rowMax_real (x : Fin 32000 → EReal) (q : Fin 32000 → ℝ) (hq : ∀ c, x c = (q c : EReal)) :
    ∃ m : ℝ, rowMax x = (m : EReal) := by
  have htop : rowMax x ≠ ⊤ := by
    refine ne_of_lt ?_
    rw [rowMax, Finset.fold_max_lt]
    refine ⟨by rw [ninf_eq]; exact bot_lt_top, fun c _ => ?_⟩
    rw [hq c]; exact EReal.coe_lt_top _
  have hbot : rowMax x ≠ ⊥ := by
    refine ne_of_gt ?_
    have h0 : x 0 ≤ rowMax x := by
      rw [rowMax, Finset.le_fold_max]
      exact Or.inr ⟨0, Finset.mem_univ _, le_rfl⟩
    refine lt_of_lt_of_le ?_ h0
    rw [hq 0]; exact EReal.bot_lt_coe _
  exact ⟨(rowMax x).toReal, (EReal.coe_toReal htop hbot).symm⟩

/-- On a row of reals with maximum `m`, the numerator `exp (x c - m)` is a real and the denominator
    `∑ exp (x c - m)` is a positive real (a nonempty sum of positive terms). -/
theorem expShift_denom_real (x : Fin 32000 → EReal) (hx : ∀ c, ∃ q : ℝ, x c = (q : EReal)) (c : Fin 32000) :
    ∃ a d : ℝ, expShift x c = (a : EReal) ∧ denom x = (d : EReal) ∧ 0 < d := by
  choose q hq using hx
  obtain ⟨m, hm⟩ := rowMax_real x q hq
  have he : ∀ c, expShift x c = ((Real.exp (q c - m) : ℝ) : EReal) := by
    intro c
    rw [expShift, hq c, hm, ← EReal.coe_sub, Ideal.exp_coe]
  refine ⟨Real.exp (q c - m), ∑ c : Fin 32000, Real.exp (q c - m), he c, ?_, ?_⟩
  · rw [denom, coe_sum]
    exact Finset.sum_congr rfl fun c _ => he c
  · exact Finset.sum_pos (fun c _ => Real.exp_pos _) ⟨0, Finset.mem_univ _⟩

/-- On a row of reals, comparing the quotient with one half is the spec's over-confidence bit. -/
theorem hot_of_quotient (x : Fin 32000 → EReal) (hx : ∀ c, ∃ q : ℝ, x c = (q : EReal)) (c : Fin 32000) :
    Ideal.cmp .ogt (Ideal.div (expShift x c) (denom x)) (Ideal.ofBits .f32 0x3F000000#32) = hot x c := by
  -- With `a` the numerator and `d > 0` the denominator: `a / d = a · (1 / d)`, and both sides compare reals.
  obtain ⟨a, d, ha, hd, hpos⟩ := expShift_denom_real x hx c
  rw [hot, ha, hd, half_eq, Ideal.div_coe hpos.ne']
  rw [← EReal.coe_mul, ← EReal.coe_mul]
  show BitVec.ofBool (decide (((1 / 2 : ℝ) : EReal) < ((a * (1 / d) : ℝ) : EReal)))
    = BitVec.ofBool (decide (((d * (1 / 2) : ℝ) : EReal) < (a : EReal)))
  refine congrArg BitVec.ofBool (decide_eq_decide.mpr ?_)
  -- `½ < a / d ↔ ½ · d < a` since `d > 0`.
  rw [EReal.coe_lt_coe_iff, EReal.coe_lt_coe_iff, mul_one_div, lt_div_iff₀ hpos, mul_comm]

end Cert.CeHs

end
-- ==== Proof.RefSoftmax.lean ====
/-
  The reference's softmax stages, read at an index: the row maximum, the shifted exponentials, their sum, and the
  comparison of the probability with one half — which on a row of reals is the spec's over-confidence bit.
-/
import proofs.«417274_j50740743635432_2_alg».proof.Proof.Gen.ReferenceIdeal.Read
import proofs.«417274_j50740743635432_2_alg».proof.Proof.Spec
import proofs.«417274_j50740743635432_2_alg».proof.Proof.MaskLaw
import Idealize.ShloMosaic.PureOps.Ideal.Laws
import Idealize.ShloMosaic.Lib.Pipeline.Value

noncomputable section

open scoped BigOperators

namespace Cert.ReferenceIdeal.Hand

open Cert.ReferenceIdeal Cert.ReferenceIdeal.Gen Cert.ReferenceIdeal.Read Idealize.ShloMosaic Idealize.ShloMosaic.ValueIdx Cert.CeHs

/-- Putting column `k` back into the row index `r` gives `(r, k)`. -/
theorem lift_ix1 {a b : ℕ} (h : (⟨2, ![a, b]⟩ : Shape).Reduces [1] ⟨1, ![a]⟩) (r : Fin a) (k : Fin b) :
    h.lift (ix1 r) k = ix2 r k := by
  funext ax
  match ax with
  | ⟨0, _⟩ => rfl
  | ⟨1, _⟩ => rfl

/-- The reduction along the columns, at row `r`, is the row's maximum folded from `-∞`. -/
theorem v0_apply (x0 : FVec Ideal S2048x32000 .f32) (r : Fin 2048) :
    val_main_v0 (F := Ideal) x0 (ix1 r) = rowMax (fun k => x0 (ix2 r k)) := by
  unfold val_main_v0
  refine (Host.reduce_eq_fold_single FloatOps.maximumf x0 _ reducesTo_S2048x32000_S2048_d1 (by decide) h_S_
    (ix1 r)).trans ?_
  rw [val_main_cst_apply]
  show (Finset.univ : Finset (Fin 32000)).fold max (Ideal.ofBits .f32 0xFF800000#32) _ = rowMax _
  unfold rowMax
  exact congrArg ((Finset.univ : Finset (Fin 32000)).fold max (Ideal.ofBits .f32 0xFF800000#32))
    (funext fun k => congrArg x0 (lift_ix1 _ r k))

/-- Taking the maximum with `-∞` once more changes nothing: the fold already starts from it. -/
theorem v2_apply (x0 : FVec Ideal S2048x32000 .f32) (r : Fin 2048) :
    val_main_v2 (F := Ideal) x0 (ix1 r) = rowMax (fun k => x0 (ix2 r k)) := by
  rw [val_main_v2_apply, val_main_v1_apply, val_main_cst_0_apply, v0_apply]
  show max (Ideal.ofBits .f32 0xFF800000#32) (rowMax _) = rowMax _
  refine max_eq_right ?_
  unfold rowMax
  exact (Finset.le_fold_max _).2 (Or.inl le_rfl)

/-- The shifted exponential at `(r, k)`. -/
theorem v6_apply (x0 : FVec Ideal S2048x32000 .f32) (r : Fin 2048) (k : Fin 32000) :
    val_main_v6 (F := Ideal) x0 (ix2 r k) = expShift (fun k => x0 (ix2 r k)) k := by
  rw [val_main_v6_apply, val_main_v5_apply, val_main_v4_apply, val_main_v3_apply]
  have hi : idx_main_v3 (idx_main_v4 (ix2 r k)) = ix1 r := by
    funext a; match a with | ⟨0, _⟩ => rfl
  rw [hi, v2_apply]
  rfl

/-- The softmax denominator of row `r`. -/
theorem v7_apply (x0 : FVec Ideal S2048x32000 .f32) (r : Fin 2048) :
    val_main_v7 (F := Ideal) x0 (ix1 r) = denom (fun k => x0 (ix2 r k)) := by
  rw [val_main_v7_apply, val_main_cst_1_apply]
  show Ideal.ofBits .f32 0x00000000#32 + _ = _
  rw [Ideal.ofBits_zero_f32, zero_add]
  unfold denom
  refine Finset.sum_congr rfl fun c _ => ?_
  have hi : idx_main_v7 (ix1 r) c = ix2 r c := by
    funext a; match a with | ⟨0, _⟩ => rfl | ⟨1, _⟩ => rfl
  rw [hi]
  exact v6_apply x0 r c

/-- The reference's mask at `(r, k)` is the over-confidence bit of column `k` of row `r`. -/
theorem v12_apply (x0 : FVec Ideal S2048x32000 .f32)
    (hfin : ∀ (r : Fin 2048) (k : Fin 32000), ∃ q : ℝ, x0 (ix2 r k) = (q : EReal)) (r : Fin 2048) (k : Fin 32000) :
    val_main_v12 (F := Ideal) x0 (ix2 r k) = hot (fun k => x0 (ix2 r k)) k := by
  rw [val_main_v12_apply, val_main_v10_apply, val_main_v11_apply, val_main_cst_2_apply, val_main_v9_apply,
    val_main_v8_apply]
  have hi : idx_main_v8 (idx_main_v9 (ix2 r k)) = ix1 r := by
    funext a; match a with | ⟨0, _⟩ => rfl
  rw [hi, v6_apply, v7_apply]
  -- the quotient of the shifted exponential by the denominator, compared with one half
  exact hot_of_quotient _ (fun c => hfin r c) k

end Cert.ReferenceIdeal.Hand

end
-- ==== Proof.LibScatterRowCol.lean ====
/-
  A `stablehlo.scatter` that SETS one element per row of a rank-2 table, read at an index.

  Operand `[N, C]`, scatter indices `[N, 2]` (index vector along axis 1, both operand axes inserted, the index
  vector's components naming the operand's axes 0 and 1 in order), updates `[N]`, the body returning the update: what
  `x.at[rows, cols].set(v)` lowers to. When update `n` names row `n` itself and an in-range column `col n`, no two
  updates land on one element, and the result at `(r, c)` is update `r` where `c = col r` and the operand elsewhere.
-/
import Idealize.ShloMosaic.PureOps
import Idealize.ShloMosaic.Lib.ValueIdx

noncomputable section

namespace Cert.LibScatterRowCol

open Idealize.ShloMosaic Idealize.ShloMosaic.ValueIdx

/-- Those dimension numbers, for an operand `[N, C]`, scatter indices `[N, 2]` and updates `[N]`. -/
abbrev rowColDims (N C : Nat)
    (wf : ScatterDims.WF (⟨2, ![N, C]⟩ : Shape) (⟨2, ![N, 2]⟩ : Shape) (⟨1, ![N]⟩ : Shape) [] [0, 1] [0, 1] 1) :
    ScatterDims (⟨2, ![N, C]⟩ : Shape) (⟨2, ![N, 2]⟩ : Shape) (⟨1, ![N]⟩ : Shape) where
  updateWindowDims := []
  insertedWindowDims := [0, 1]
  scatterDimsToOperandDims := [0, 1]
  indexVectorDim := 1
  wf := wf

section Fold
variable {ι K α : Type} [DecidableEq ι] [DecidableEq K]

/-- A left fold of steps "set element `t n` to `v n`" leaves alone an element that no step names. -/
theorem foldl_set_of_not_hit (t : K → ι) (v : K → α) (i : ι) :
    ∀ (l : List K) (x : ι → α), (∀ n ∈ l, t n ≠ i) →
      l.foldl (fun r n i' => if i' = t n then v n else r i') x i = x i
  | [], _, _ => rfl
  | a :: l, x, h => by
      rw [List.foldl_cons, foldl_set_of_not_hit t v i l _ (fun n hn => h n (List.mem_cons_of_mem a hn))]
      exact if_neg (fun e => h a (List.mem_cons.2 (Or.inl rfl)) e.symm)

/-- When at most the step `n₀` of the list names element `i`, the fold holds that step's value there if `n₀` is
    in the list, and the start value if not. -/
theorem foldl_set_of_unique_hit (t : K → ι) (v : K → α) (i : ι) (n₀ : K) (h₀ : t n₀ = i) :
    ∀ (l : List K) (x : ι → α), (∀ n ∈ l, t n = i → n = n₀) →
      l.foldl (fun r n i' => if i' = t n then v n else r i') x i = if n₀ ∈ l then v n₀ else x i
  | [], _, _ => by simp
  | a :: l, x, h => by
      rw [List.foldl_cons, foldl_set_of_unique_hit t v i n₀ h₀ l _ (fun n hn => h n (List.mem_cons_of_mem a hn))]
      by_cases hl : n₀ ∈ l
      · rw [if_pos hl, if_pos (List.mem_cons_of_mem a hl)]
      · rw [if_neg hl]
        by_cases ha : a = n₀
        · subst ha
          rw [if_pos (List.mem_cons.2 (Or.inl rfl))]
          exact if_pos h₀.symm
        · rw [if_neg (fun hm => (List.mem_cons.1 hm).elim (fun e => ha e.symm) hl)]
          exact if_neg (fun e => ha (h a (List.mem_cons.2 (Or.inl rfl)) e.symm))

end Fold

section Dims
variable {N C w : Nat}
  (wf : ScatterDims.WF (⟨2, ![N, C]⟩ : Shape) (⟨2, ![N, 2]⟩ : Shape) (⟨1, ![N]⟩ : Shape) [] [0, 1] [0, 1] 1)

/-- Both operand axes are inserted window axes: none is kept. -/
theorem not_mem_sKept (a : Fin 2) : a ∉ (rowColDims N C wf).sKept := by
  intro h
  have h2 := (List.mem_filter.1 h).2
  match a with
  | ⟨0, _⟩ => simp at h2
  | ⟨1, _⟩ => simp at h2

/-- The window coordinate is zero on both operand axes. -/
theorem window_eq (j : (⟨1, ![N]⟩ : Shape).Idx) (a : Fin 2) : (rowColDims N C wf).window j a = 0 :=
  dif_neg (not_mem_sKept wf a)

/-- The start on operand axis 0 is component 0 of update `j`'s index vector. -/
theorem start_zero (idx : IVec (⟨2, ![N, 2]⟩ : Shape) w) (j : (⟨1, ![N]⟩ : Shape).Idx) :
    (rowColDims N C wf).start j idx (0 : Fin 2) = (idx (ix2 (j 0) (0 : Fin 2))).toInt := by
  unfold ScatterDims.start
  rw [dif_pos (show (0 : Fin 2) ∈ (rowColDims N C wf).scatterDimsToOperandDims from List.mem_cons.2 (Or.inl rfl))]
  have hsi : (rowColDims N C wf).siIdx j ⟨List.idxOf (0 : Fin 2) (rowColDims N C wf).scatterDimsToOperandDims,
      List.idxOf_lt_length_iff.2 (List.mem_cons.2 (Or.inl rfl))⟩ = ix2 (j 0) (0 : Fin 2) := by
    funext b; refine Fin.ext ?_
    match b with
    | ⟨0, _⟩ => rfl
    | ⟨1, _⟩ => rfl
  rw [hsi]
  rfl

/-- The start on operand axis 1 is component 1 of update `j`'s index vector. -/
theorem start_one (idx : IVec (⟨2, ![N, 2]⟩ : Shape) w) (j : (⟨1, ![N]⟩ : Shape).Idx) :
    (rowColDims N C wf).start j idx (1 : Fin 2) = (idx (ix2 (j 0) (1 : Fin 2))).toInt := by
  unfold ScatterDims.start
  rw [dif_pos (show (1 : Fin 2) ∈ (rowColDims N C wf).scatterDimsToOperandDims from
    List.mem_cons.2 (Or.inr (List.mem_cons.2 (Or.inl rfl))))]
  have hsi : (rowColDims N C wf).siIdx j ⟨List.idxOf (1 : Fin 2) (rowColDims N C wf).scatterDimsToOperandDims,
      List.idxOf_lt_length_iff.2 (List.mem_cons.2 (Or.inr (List.mem_cons.2 (Or.inl rfl))))⟩ = ix2 (j 0) (1 : Fin 2) := by
    funext b; refine Fin.ext ?_
    match b with
    | ⟨0, _⟩ => rfl
    | ⟨1, _⟩ => rfl
  rw [hsi]
  rfl

end Dims

section Result
variable {α : Type} {N C w : Nat}
  (wf : ScatterDims.WF (⟨2, ![N, C]⟩ : Shape) (⟨2, ![N, 2]⟩ : Shape) (⟨1, ![N]⟩ : Shape) [] [0, 1] [0, 1] 1)
  (idx : IVec (⟨2, ![N, 2]⟩ : Shape) w) (col : Fin N → Fin C)
  (hrow : ∀ n : Fin N, (idx (ix2 n (0 : Fin 2))).toInt = (n.val : Int))
  (hcol : ∀ n : Fin N, (idx (ix2 n (1 : Fin 2))).toInt = ((col n).val : Int))

include hrow hcol in
/-- Update `j` lands at row `j 0`, column `col (j 0)`: inside the operand. -/
theorem resultIdx_eq (j : (⟨1, ![N]⟩ : Shape).Idx) :
    (rowColDims N C wf).resultIdx? j idx = some (ix2 (j 0) (col (j 0))) := by
  have hs : ∀ a : Fin 2, (rowColDims N C wf).start j idx a + ((rowColDims N C wf).window j a : Int)
      = (((ix2 (j 0) (col (j 0)) : (⟨2, ![N, C]⟩ : Shape).Idx) a).val : Int) := by
    intro a
    rw [window_eq wf j a]
    match a with
    | ⟨0, _⟩ => exact ((congrArg (· + ((0 : Nat) : Int)) (start_zero wf idx j)).trans (by rw [hrow (j 0)]; simp))
    | ⟨1, _⟩ => exact ((congrArg (· + ((0 : Nat) : Int)) (start_one wf idx j)).trans (by rw [hcol (j 0)]; simp))
  unfold ScatterDims.resultIdx?
  rw [dif_pos (fun a => by
    rw [hs a]
    exact ⟨Int.natCast_nonneg _, by exact_mod_cast ((ix2 (j 0) (col (j 0)) : (⟨2, ![N, C]⟩ : Shape).Idx) a).isLt⟩)]
  congr 1
  funext a
  refine Fin.ext ?_
  show ((rowColDims N C wf).start j idx a + ((rowColDims N C wf).window j a : Int)).toNat = _
  rw [hs a]
  exact Int.toNat_natCast _

end Result

/-- THE SCATTER READ AT `(r, c)`: update `r` at the column row `r`'s index names, the operand elsewhere. -/
theorem scatter_set_rowcol_apply {α : Type} {N C w : Nat}
    (wf : ScatterDims.WF (⟨2, ![N, C]⟩ : Shape) (⟨2, ![N, 2]⟩ : Shape) (⟨1, ![N]⟩ : Shape) [] [0, 1] [0, 1] 1)
    (x : (⟨2, ![N, C]⟩ : Shape).Idx → α) (idx : IVec (⟨2, ![N, 2]⟩ : Shape) w) (upd : (⟨1, ![N]⟩ : Shape).Idx → α)
    (col : Fin N → Fin C)
    (hrow : ∀ n : Fin N, (idx (ix2 n (0 : Fin 2))).toInt = (n.val : Int))
    (hcol : ∀ n : Fin N, (idx (ix2 n (1 : Fin 2))).toInt = ((col n).val : Int))
    (r : Fin N) (c : Fin C) :
    Host.scatter (rowColDims N C wf) (fun _ b => b) x idx upd (ix2 r c)
      = if c = col r then upd (ix1 r) else x (ix2 r c) := by
  unfold Host.scatter
  -- every update lands inside the operand, update `n` at `(n, col n)`: the fold's step is a plain "set"
  simp only [resultIdx_eq wf idx col hrow hcol]
  by_cases hc : c = col r
  · -- the one update that names `(r, col r)` is update `r`
    subst hc
    rw [if_pos rfl]
    refine (foldl_set_of_unique_hit _ _ (ix2 r (col r)) ((⟨1, ![N]⟩ : Shape).rowMajor (ix1 r)) ?_ _ x ?_).trans ?_
    · show ix2 (((⟨1, ![N]⟩ : Shape).rowMajor.symm ((⟨1, ![N]⟩ : Shape).rowMajor (ix1 r))) 0)
          (col (((⟨1, ![N]⟩ : Shape).rowMajor.symm ((⟨1, ![N]⟩ : Shape).rowMajor (ix1 r))) 0)) = ix2 r (col r)
      rw [Equiv.symm_apply_apply]
      rfl
    · intro n _ e
      have h0 : ((⟨1, ![N]⟩ : Shape).rowMajor.symm n) 0 = r := congrFun e 0
      exact (Equiv.symm_apply_eq _).1 ((eq_ix1 _).trans (congrArg ix1 h0))
    · rw [if_pos (List.mem_finRange _)]
      exact congrArg upd (Equiv.symm_apply_apply _ _)
  · -- no update names `(r, c)`: the one in row `r` goes to column `col r`
    rw [if_neg hc]
    refine foldl_set_of_not_hit _ _ (ix2 r c) _ x (fun n _ e => hc ?_)
    have h0 : ((⟨1, ![N]⟩ : Shape).rowMajor.symm n) 0 = r := congrFun e 0
    have h1 : col (((⟨1, ![N]⟩ : Shape).rowMajor.symm n) 0) = c := congrFun e 1
    exact h1.symm.trans (congrArg col h0)

end Cert.LibScatterRowCol

end
-- ==== Proof.RefScatter.lean ====
/-
  The reference's scatter, read at an index: the smoothed target after `true_dist.at[rows, label].set(0.9)`.

  The scatter indices are the pairs `(n, label n)` (jnp's wrap of negative indices is the identity on a row number and on
  a label in `[0, 32000)`), so element `(r, k)` becomes `0.9` exactly where `k` is row `r`'s label and keeps the operand's
  value elsewhere.
-/
import proofs.«417274_j50740743635432_2_alg».proof.Proof.Gen.ReferenceIdeal.Read
import proofs.«417274_j50740743635432_2_alg».proof.Proof.LibScatterRowCol
import Idealize.ShloMosaic.Lib.StableHlo.Predicate
import Idealize.ShloMosaic.Lib.Pipeline.Value

noncomputable section

namespace Cert.ReferenceIdeal.Hand

open Cert.ReferenceIdeal Cert.ReferenceIdeal.Gen Cert.ReferenceIdeal.Read Idealize.ShloMosaic Idealize.ShloMosaic.ValueIdx

/-- The wrapped row number of update `j`: the row number itself, the signed compare with zero being false. -/
theorem v20_eq (j : S2048.Idx) : val_main_v20 (F := Ideal) j = BitVec.ofNat 32 (j 0).val := by
  have hlt : (j 0).val < 2048 := (j 0).isLt
  have hne : ¬ IntOp.cmpi .slt (BitVec.ofNat 32 (j 0).val) 0#32 = 1#1 := fun h => by
    have := (StableHlo.Predicate.slt_ofNat_iff (j 0).val 0 (by omega) (by omega)).1 h
    omega
  rw [val_main_v20_apply, val_main_v17_apply, val_main_v16_apply, val_main_c_apply, val_main_v15_apply,
    eq_zero_of_ne_one hne, select_zero]

/-- The wrapped label of update `j`: the label itself when it is not negative. -/
theorem v25_eq (x1 : IVec S2048 32) (j : S2048.Idx) (h0 : 0 ≤ (x1 j).toInt) :
    val_main_v25 (F := Ideal) x1 j = x1 j := by
  have hne : ¬ IntOp.cmpi .slt (x1 j) 0#32 = 1#1 := fun h => by
    have h' : BitVec.ofBool ((x1 j).slt 0#32) = 1#1 := h
    rw [StableHlo.Predicate.ofBool_eq_one_iff, BitVec.slt, decide_eq_true_eq, BitVec.toInt_zero] at h'
    omega
  rw [val_main_v25_apply, val_main_v22_apply, val_main_v21_apply, val_main_c_6_apply, eq_zero_of_ne_one hne, select_zero]

/-- Column 0 of the scatter indices: the row number. -/
theorem v28_col0 (x1 : IVec S2048 32) (n : Fin 2048) :
    val_main_v28 (F := Ideal) x1 (ix2 n (0 : Fin 2)) = BitVec.ofNat 32 n.val := by
  unfold val_main_v28
  refine (concatenate_pair_apply_left (t := S2048x2) (s₁ := S2048x1) (s₂ := S2048x1) 1 _ _
    concatenates_S2048x1_S2048x1_S2048x2_d1 (ix2 n (0 : Fin 2)) rfl (ix2 n (0 : Fin 1)) (fun b => ?_)).trans ?_
  · match b with
    | ⟨0, _⟩ => rfl
    | ⟨1, _⟩ => rfl
  · rw [val_main_v26_apply, v20_eq]

/-- Column 1 of the scatter indices: the label, when it is not negative. -/
theorem v28_col1 (x1 : IVec S2048 32) (n : Fin 2048) (h0 : 0 ≤ (x1 (ix1 n)).toInt) :
    val_main_v28 (F := Ideal) x1 (ix2 n (1 : Fin 2)) = x1 (ix1 n) := by
  unfold val_main_v28
  refine (concatenate_pair_apply_right (t := S2048x2) (s₁ := S2048x1) (s₂ := S2048x1) 1 _ _
    concatenates_S2048x1_S2048x1_S2048x2_d1 (ix2 n (1 : Fin 2)) rfl rfl (ix2 n (0 : Fin 1)) (fun b hb => ?_) ?_).trans ?_
  · match b with
    | ⟨0, _⟩ => rfl
    | ⟨1, _⟩ => exact absurd rfl hb
  · rfl
  · rw [val_main_v27_apply]
    have e : idx_main_v27 (ix2 n (0 : Fin 1)) = ix1 n := by
      funext a; match a with | ⟨0, _⟩ => rfl
    rw [e]
    exact v25_eq x1 (ix1 n) h0

/-- The scattered target at `(r, k)`: `0.9` where `k` is row `r`'s label, the operand elsewhere. -/
theorem v30_apply (x0 : FVec Ideal S2048x32000 .f32) (x1 : IVec S2048 32)
    (hlab : ∀ r : Fin 2048, 0 ≤ (x1 (ix1 r)).toInt ∧ (x1 (ix1 r)).toInt < 32000) (r : Fin 2048) (k : Fin 32000) :
    val_main_v30 (F := Ideal) x0 x1 (ix2 r k)
      = Scalar.select (IntOp.cmpi .eq (BitVec.ofNat 32 k.val) (x1 (ix1 r))) (Ideal.ofBits .f32 0x3F666666#32)
          (val_main_v14 (F := Ideal) x0 (ix2 r k)) := by
  -- row `n`'s column: its label, which is in range
  let col : Fin 2048 → Fin 32000 := fun n => ⟨(x1 (ix1 n)).toInt.toNat, by have := hlab n; omega⟩
  have hrow : ∀ n : Fin 2048, (val_main_v28 (F := Ideal) x1 (ix2 n (0 : Fin 2))).toInt = (n.val : Int) := fun n => by
    rw [v28_col0]
    exact StableHlo.Predicate.toInt_ofNat_small n.val (by have := n.isLt; omega)
  have hcol : ∀ n : Fin 2048, (val_main_v28 (F := Ideal) x1 (ix2 n (1 : Fin 2))).toInt = ((col n).val : Int) := fun n => by
    rw [v28_col1 x1 n (hlab n).1]
    exact (Int.toNat_of_nonneg (hlab n).1).symm
  unfold val_main_v30
  refine (Cert.LibScatterRowCol.scatter_set_rowcol_apply
    Facts₀.scatter_S2048x32000_S2048x2_S2048_n_01_01_1_wf (val_main_v14 (F := Ideal) x0) (val_main_v28 (F := Ideal) x1)
    (val_main_v29 (F := Ideal)) col hrow hcol r k).trans ?_
  have hk31 : k.val < 2 ^ 31 := by have := k.isLt; omega
  by_cases hk : k = col r
  · -- the label's own column: the word of `k` is the label
    have he : BitVec.ofNat 32 k.val = x1 (ix1 r) := by
      apply BitVec.eq_of_toInt_eq
      rw [StableHlo.Predicate.toInt_ofNat_small k.val hk31]
      have := congrArg Fin.val hk
      have h1 : (k.val : Int) = ((x1 (ix1 r)).toInt.toNat : Int) := congrArg (Nat.cast) this
      rw [h1]
      exact Int.toNat_of_nonneg (hlab r).1
    rw [if_pos hk, StableHlo.Predicate.cmpi_eq_iff.2 he, select_one, val_main_v29_apply, val_main_cst_8_apply]
    rfl
  · -- another column: the word of `k` is not the label
    have hne : ¬ IntOp.cmpi .eq (BitVec.ofNat 32 k.val) (x1 (ix1 r)) = 1#1 := fun h => hk (by
      have e := StableHlo.Predicate.cmpi_eq_iff.1 h
      refine Fin.ext ?_
      show k.val = (x1 (ix1 r)).toInt.toNat
      rw [← e, StableHlo.Predicate.toInt_ofNat_small k.val hk31]
      rfl)
    rw [if_neg hk, eq_zero_of_ne_one hne, select_zero]

end Cert.ReferenceIdeal.Hand

end
-- ==== Proof.RefRow.lean ====
/-
  The reference, read as the spec's value.

  With the mask stage equal to the over-confidence bit and the scattered target read at an index, each element of the
  reference's product is `(-w) · log f` with `w` the spec's weight and `f` the flipped prediction; the row sum from zero is
  the row's loss because `0 + ∑ (-w) · L = ∑ w · (0 - L)` on the extended reals (a sign moves through a product), and the
  last two host lines are the mean.
-/
import proofs.«417274_j50740743635432_2_alg».proof.Proof.RefSoftmax
import proofs.«417274_j50740743635432_2_alg».proof.Proof.RefScatter
import proofs.«417274_j50740743635432_2_alg».proof.Proof.IdxSum

noncomputable section

open scoped BigOperators

namespace Cert.ReferenceIdeal.Hand

open Cert.ReferenceIdeal Cert.ReferenceIdeal.Gen Cert.ReferenceIdeal.Read Idealize.ShloMosaic Idealize.ShloMosaic.ValueIdx Cert.CeHs

variable (x0 : FVec Ideal S2048x32000 .f32) (x1 : IVec S2048 32)

/-- Row `r` of the predictions. -/
abbrev row (r : Fin 2048) : Fin 32000 → EReal := fun k => x0 (ix2 r k)

/-- The target before the scatter: `0.1` where over-confident, else `0`. -/
theorem v14_apply (hfin : ∀ (r : Fin 2048) (k : Fin 32000), ∃ q : ℝ, x0 (ix2 r k) = (q : EReal)) (r : Fin 2048) (k : Fin 32000) :
    val_main_v14 (F := Ideal) x0 (ix2 r k)
      = Scalar.select (hot (row x0 r) k) (Ideal.ofBits .f32 0x3DCCCCCD#32) (Ideal.ofBits .f32 0x00000000#32) := by
  rw [val_main_v14_apply, val_main_v13_apply, v12_apply x0 hfin r k, val_main_call0_v0_apply, val_main_call0_v1_apply,
    val_main_cst_3_apply, val_main_cst_4_apply]
  rfl

/-- The flipped prediction. -/
theorem v33_apply (hfin : ∀ (r : Fin 2048) (k : Fin 32000), ∃ q : ℝ, x0 (ix2 r k) = (q : EReal)) (r : Fin 2048) (k : Fin 32000) :
    val_main_v33 (F := Ideal) x0 (ix2 r k) = flipped (row x0 r) k := by
  rw [val_main_v33_apply, v12_apply x0 hfin r k, val_main_v32_apply, val_main_v31_apply, val_main_cst_9_apply]
  rfl

/-- One element of the product: minus the weight, times the logarithm of the flipped prediction. -/
theorem v36_apply (hfin : ∀ (r : Fin 2048) (k : Fin 32000), ∃ q : ℝ, x0 (ix2 r k) = (q : EReal))
    (hlab : ∀ r : Fin 2048, 0 ≤ (x1 (ix1 r)).toInt ∧ (x1 (ix1 r)).toInt < 32000) (r : Fin 2048) (k : Fin 32000) :
    val_main_v36 (F := Ideal) x0 x1 (ix2 r k) = -(weight (row x0 r) (x1 (ix1 r)) k) * Ideal.log (flipped (row x0 r) k) := by
  rw [val_main_v36_apply, val_main_v34_apply, val_main_v35_apply, v30_apply x0 x1 hlab r k, v14_apply x0 hfin r k,
    v33_apply x0 hfin r k]
  rfl

/-- The row sum is the row's loss. -/
theorem v37_apply (hfin : ∀ (r : Fin 2048) (k : Fin 32000), ∃ q : ℝ, x0 (ix2 r k) = (q : EReal))
    (hlab : ∀ r : Fin 2048, 0 ≤ (x1 (ix1 r)).toInt ∧ (x1 (ix1 r)).toInt < 32000) (r : Fin 2048) :
    val_main_v37 (F := Ideal) x0 x1 (ix1 r) = rowLoss (row x0 r) (x1 (ix1 r)) := by
  have hidx : ∀ k : Fin 32000, idx_main_v37 (ix1 r) k = ix2 r k := fun k =>
    funext fun a => by match a with | ⟨0, _⟩ => rfl | ⟨1, _⟩ => rfl
  rw [val_main_v37_apply, val_main_cst_10_apply]
  show Ideal.ofBits .f32 0x00000000#32 + _ = _
  unfold rowLoss
  rw [Ideal.ofBits_zero_f32, zero_add]
  refine Finset.sum_congr rfl fun k _ => ?_
  rw [hidx k, v36_apply x0 x1 hfin hlab r k, sub_eq_add_neg, zero_add, neg_mul, mul_neg]

/-- THE REFERENCE'S RESULT is the mean loss of its arguments. -/
theorem ref_eq (hfin : ∀ (r : Fin 2048) (k : Fin 32000), ∃ q : ℝ, x0 (ix2 r k) = (q : EReal))
    (hlab : ∀ r : Fin 2048, 0 ≤ (x1 (ix1 r)).toInt ∧ (x1 (ix1 r)).toInt < 32000) :
    val_main_v39 (F := Ideal) x0 x1 = fun _ => meanLoss (fun r => row x0 r) (fun r => x1 (ix1 r)) := by
  funext i
  rw [val_main_v39_apply, val_main_v38_apply, val_main_cst_11_apply, val_main_cst_12_apply, sum_idx1]
  unfold meanLoss
  show Ideal.div (Ideal.ofBits .f32 0x00000000#32 + _) (Ideal.ofBits .f32 0x45000000#32) = _
  exact congrArg (fun s => Ideal.div (Ideal.ofBits .f32 0x00000000#32 + s) (Ideal.ofBits .f32 0x45000000#32))
    (Finset.sum_congr rfl fun r _ => v37_apply x0 x1 hfin hlab r)

end Cert.ReferenceIdeal.Hand

end
-- ==== Proof.PreFacts.lean ====
/-
  What the precondition says of the inputs: every prediction is a real number, and every label is a class index,
  `0 ≤ label < 32000`.
-/
import proofs.«417274_j50740743635432_2_alg».proof.Pre_finite_inputs
import proofs.«417274_j50740743635432_2_alg».proof.Proof.Gen.Pre_finite_inputs
import Idealize.ShloMosaic.PureOps.Ideal
import Idealize.ShloMosaic.Lib.ReduceAll
import Idealize.ShloMosaic.Lib.ValueIdx

noncomputable section

namespace Cert.CeHs

open Idealize.ShloMosaic

/-- The word `0x7F800000` is `+∞`. -/
private theorem pinf_eq : Ideal.ofBits .f32 0x7F800000#32 = (⊤ : EReal) := by
  simp [Ideal.ofBits, Ideal.ieee]

/-- A comparison bit is `1` exactly when the compared proposition holds. -/
private theorem ofBool_decide_eq_one {p : Prop} [Decidable p] : BitVec.ofBool (decide p) = 1#1 ↔ p := by
  by_cases hp : p <;> simp [hp]

/-- An extended real whose absolute value `max x (-x)` is below `+∞` is neither infinity: it is a real. -/
private theorem real_of_abs_lt_top (x : EReal) (h : max x (-x) < ⊤) : ∃ q : ℝ, x = (q : EReal) := by
  induction x using EReal.rec with
  | bot => simp at h
  | coe r => exact ⟨r, rfl⟩
  | top => simp at h

/-- The scalar shape has one index. -/
private instance : Subsingleton Cert.Pre_finite_inputs.S_.Idx := ⟨fun a b => funext fun d => d.elim0⟩

/-- The printed precondition, all ones, gives real predictions and in-range labels. -/
theorem of_pre (a0 : FVec Ideal Cert.Pre_finite_inputs.S2048x32000 .f32) (a1 : IVec Cert.Pre_finite_inputs.S2048 32)
    (h : Cert.Pre_finite_inputs.fn (F := Ideal) a0 a1 = fun _ => 1#1) :
    (∀ i, ∃ q : ℝ, a0 i = (q : EReal)) ∧ (∀ i, 0 ≤ (a1 i).toInt ∧ (a1 i).toInt < 32000) := by
  -- the result's one word is the conjunction of three reductions by `and`, each of which is then `1`
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun i => ⟨?_, ?_⟩⟩
  · -- `|a0 i| < +∞`
    have e : Ideal.cmp .olt (max (a0 i) (-(a0 i))) (Ideal.ofBits .f32 0x7F800000#32) = 1#1 :=
      Host.reduce_andi_all _ _ _ _ _ h1 i
    rw [pinf_eq] at e
    exact real_of_abs_lt_top _ (ofBool_decide_eq_one.1 e)
  · -- `a1 i ≥ 0`, signed
    have e : IntOp.cmpi .sge (a1 i) 0#32 = 1#1 := Host.reduce_andi_all _ _ _ _ _ h2 i
    have := IntOp.cmpi_sge.1 e
    rwa [show (0#32 : BitVec 32).toInt = 0 from by decide] at this
  · -- `a1 i < 32000`, signed
    have e : IntOp.cmpi .slt (a1 i) 32000#32 = 1#1 := Host.reduce_andi_all _ _ _ _ _ h3 i
    have := IntOp.cmpi_slt.1 e
    rwa [show (32000#32 : BitVec 32).toInt = 32000 from by decide] at this

end Cert.CeHs

end
-- ==== Proof.lean ====
/-
  The kernel's entry point and the jnp reference compute one number: the mean over 2048 rows of a label-smoothed
  cross-entropy in which over-confident predictions are flipped.

  Per row `x` (32000 reals) with label `l`: `e c = exp (x c - max x)`, `D = ∑ e`; column `c` is over-confident when the
  softmax probability `e c / D` exceeds one half. The kernel tests `e c > D · ½` instead — the same test, since `D` is a
  positive real when the row is real (the precondition's finiteness). The target weight is `0.9` at the label's column,
  else `0.1` at an over-confident column, else `0`: the kernel selects on `column = label`, the reference scatters `0.9` at
  `(row, label)` after jnp's wrap of negative indices, which is the identity exactly on the label range `0 ≤ l < 32000`
  the precondition states. The summand is `w · (0 - log f)` in the kernel and `(-w) · log f` in the reference, `f` the
  prediction flipped to `1 - x c` where over-confident: equal on the extended reals. Both then sum the rows from zero
  and divide by 2048.

  The kernel's value is read off its frame run (the 32 blocks of 64 rows tile the result column); the reference's off
  its run, one operation at a time. The frames are the programs' runs with the results dropped; the idealization
  rewrote nothing, so `preserves` is trivial.
-/
import proofs.«417274_j50740743635432_2_alg».proof.Defs
import proofs.«417274_j50740743635432_2_alg».proof.Proof.Gen.Kernel
import proofs.«417274_j50740743635432_2_alg».proof.Proof.Gen.Kernel.Skeleton
import proofs.«417274_j50740743635432_2_alg».proof.Proof.Gen.Kernel.Launch
import proofs.«417274_j50740743635432_2_alg».proof.Proof.Gen.Kernel.Points
import proofs.«417274_j50740743635432_2_alg».proof.Proof.Gen.Kernel.Frame
import proofs.«417274_j50740743635432_2_alg».proof.Proof.Gen.KernelIdeal
import proofs.«417274_j50740743635432_2_alg».proof.Proof.Gen.KernelIdeal.Skeleton
import proofs.«417274_j50740743635432_2_alg».proof.Proof.Gen.KernelIdeal.Launch
import proofs.«417274_j50740743635432_2_alg».proof.Proof.Gen.KernelIdeal.Points
import proofs.«417274_j50740743635432_2_alg».proof.Proof.Gen.KernelIdeal.Frame
import proofs.«417274_j50740743635432_2_alg».proof.Proof.Gen.ReferenceIdeal
import proofs.«417274_j50740743635432_2_alg».proof.Proof.Gen.ReferenceIdeal.Run
import proofs.«417274_j50740743635432_2_alg».proof.Proof.Gen.ReferenceIdeal.Read
import proofs.«417274_j50740743635432_2_alg».proof.Proof.Gen.Pre_finite_inputs
import proofs.«417274_j50740743635432_2_alg».proof.Proof.KernelRun
import proofs.«417274_j50740743635432_2_alg».proof.Proof.RefRow
import proofs.«417274_j50740743635432_2_alg».proof.Proof.PreFacts
import Idealize.ShloMosaic.Adequacy
import Idealize.ShloMosaic.Init

noncomputable section

namespace Cert.Proof

open Idealize.ShloMosaic Idealize.SL.Sem Idealize.ShloMosaic.ValueIdx

/-- The word-level kernel runs and leaves its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the mean loss of the launched predictions and labels. -/
theorem algebraic : Cert.algebraic_KernelIdeal_ReferenceIdeal := by
  intro m ρ m' ρ' hpre hagree
  refine ⟨fun c => (fun _ => Cert.CeHs.meanLoss (Cert.KernelIdeal.Hand.predRow m c) (Cert.KernelIdeal.Hand.labelOf m c)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨hfin, hlab⟩ := Cert.CeHs.of_pre _ _ (hpre c)
  rw [Cert.ReferenceIdeal.Read.val_main_v39_eq, (hagree c).1, (hagree c).2]
  exact Cert.ReferenceIdeal.Hand.ref_eq
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (fun r k => hfin (ix2 r k)) (fun r => hlab (ix1 r))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
